-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_1000000" .f32 0x358637BD#32 ((1 / 1000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S1000000x3 : Shape := ⟨2, ![1000000, 3]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_

variable [Facts]

def fn {F : FTy → Type} [FloatOps F] (main_arg0 : FVec F S8192x128 .f32) (main_arg1 : IVec S1000000x3 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S1000000x3 32 := broadcastInDim S1000000x3 ![] bcast_S_S1000000x3 main_c_0
  let main_v5 : IVec S1000000x3 1 := cmpi .sge main_arg1 main_v4
  let main_c_1 : IVec S_ 1 := constantI S_ 1 1#1
  let main_v6 : IVec S_ 1 := (fun x v => Host.reduce IntOp.andi x v reducesTo_S1000000x3_S_d0_1 h_S_) main_v5 main_c_1
  let main_v7 : IVec S_ 1 := andi main_v3 main_v6
  main_v7
-- ==== Kernel.lean ====
abbrev S8192x128 : Shape := ⟨2, ![8192, 128]⟩
abbrev S1000000x3 : Shape := ⟨2, ![1000000, 3]⟩
abbrev S1000000x1 : Shape := ⟨2, ![1000000, 1]⟩
abbrev S1000000 : Shape := ⟨1, ![1000000]⟩
abbrev S1000000x128 : Shape := ⟨2, ![1000000, 128]⟩
abbrev S1x1 : Shape := ⟨2, ![1, 1]⟩
abbrev S4000x128 : Shape := ⟨2, ![4000, 128]⟩
abbrev S4000 : Shape := ⟨1, ![4000]⟩
abbrev S4000x1 : Shape := ⟨2, ![4000, 1]⟩
abbrev S1 : Shape := ⟨1, ![1]⟩

abbrev nBuf : Space → Nat
  | .hbm => 16
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S1000000x3, .i32⟩
  | .hbm, ⟨2, _⟩ => ⟨S1000000x1, .i32⟩
  | .hbm, ⟨3, _⟩ => ⟨S1000000, .i32⟩
  | .hbm, ⟨4, _⟩ => ⟨S1000000x1, .i32⟩
  | .hbm, ⟨5, _⟩ => ⟨S1000000, .i32⟩
  | .hbm, ⟨6, _⟩ => ⟨S1000000x1, .i32⟩
  | .hbm, ⟨7, _⟩ => ⟨S1000000, .i32⟩
  | .hbm, ⟨8, _⟩ => ⟨S1000000x1, .i32⟩
  | .hbm, ⟨9, _⟩ => ⟨S1000000x128, .f32⟩
  | .hbm, ⟨10, _⟩ => ⟨S1000000x1, .i32⟩
  | .hbm, ⟨11, _⟩ => ⟨S1000000x128, .f32⟩
  | .hbm, ⟨12, _⟩ => ⟨S1000000x1, .i32⟩
  | .hbm, ⟨13, _⟩ => ⟨S1000000x128, .f32⟩
  | .hbm, ⟨14, _⟩ => ⟨S1x1, .f32⟩
  | .hbm, ⟨15, _⟩ => ⟨S1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_v6 : Ref sig .tc := ⟨.hbm, 9, rfl⟩
abbrev main_call1_v0 : Ref sig .tc := ⟨.hbm, 10, rfl⟩
abbrev main_v7 : Ref sig .tc := ⟨.hbm, 11, rfl⟩
abbrev main_call2_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  reduces_S4000x1_S1 : S4000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1 : S1x1.ShapeCasts S1
  gather_S8192x128_S1000000x1_S1000000x128_1_0_n_n_0_1_1128_wf : GatherDims.WF S8192x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S1000000x128.size a
  hwx0_2 : ∀ i : grid0.Coords, EltTy.bits .f32 = 32 ∨ (Rect.block (s := S1000000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S8192x128_S1000000x1_S1000000x128_1_0_n_n_0_1_1128 : GatherDims S8192x128 S1000000x1 S1000000x128 where
  offsetDims := [1]
  collapsedSliceDims := [0]
  operandBatchingDims := []
  startIndicesBatchingDims := []
  startIndexMap := [0]
  indexVectorDim := 1
  sliceSizes := ![1, 128]
  wf := gather_S8192x128_S1000000x1_S1000000x128_1_0_n_n_0_1_1128_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S1000000x3 : Shape := ⟨2, ![1000000, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S1000000x1 : Shape := ⟨2, ![1000000, 1]⟩
abbrev S1000000 : Shape := ⟨1, ![1000000]⟩
abbrev S1000000x2 : Shape := ⟨2, ![1000000, 2]⟩
abbrev S1 : Shape := ⟨1, ![1]⟩

abbrev nBuf : Space → Nat
  | .hbm => 81
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1000000x3, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S1000000x1, .i32⟩
  | .hbm, ⟨20, _⟩ => ⟨S1000000, .i32⟩
  | .hbm, ⟨21, _⟩ => ⟨S1000000x1, .i32⟩
  | .hbm, ⟨22, _⟩ => ⟨S1000000, .i32⟩
  | .hbm, ⟨23, _⟩ => ⟨S1000000x1, .i32⟩
  | .hbm, ⟨24, _⟩ => ⟨S1000000, .i32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x1, .i32⟩
  | .hbm, ⟨41, _⟩ => ⟨S1000000x2, .i32⟩
  | .hbm, ⟨42, _⟩ => ⟨S1000000, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x1, .i32⟩
  | .hbm, ⟨59, _⟩ => ⟨S1000000x2, .i32⟩
  | .hbm, ⟨60, _⟩ => ⟨S1000000, .f32⟩
  | .hbm, ⟨61, _⟩ => ⟨S1000000, .f32⟩
  | .hbm, ⟨62, _⟩ => ⟨S_, .f32⟩
  | .hbm, ⟨63, _⟩ => ⟨S1000000, .f32⟩
  | .hbm, ⟨64, _⟩ => ⟨S1000000, .f32⟩
  | .hbm, ⟨65, _⟩ => ⟨S1000000, .f32⟩
  | .hbm, ⟨66, _⟩ => ⟨S1000000, .f32⟩
  | .hbm, ⟨67, _⟩ => ⟨S1000000, .i1⟩
  | .hbm, ⟨68, _⟩ => ⟨S1000000, .f32⟩
  | .hbm, ⟨69, _⟩ => ⟨S1000000, .f32⟩
  | .hbm, ⟨70, _⟩ => ⟨S1000000, .f32⟩
  | .hbm, ⟨71, _⟩ => ⟨S1000000, .f32⟩
  | .hbm, ⟨72, _⟩ => ⟨S1000000, .f32⟩
  | .hbm, ⟨73, _⟩ => ⟨S1000000, .f32⟩
  | .hbm, ⟨74, _⟩ => ⟨S1000000, .f32⟩
  | .hbm, ⟨75, _⟩ => ⟨S1000000, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_c_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  reducesTo_S1000000_S_d0 : S1000000.ReducesTo [0] S_
  shapeCasts_S_S1 : S_.ShapeCasts S1
  dot_S8192x128_S128x8192_S8192x8192_1_0_0_1_n_n_wf : DotDims.WF S8192x128 S128x8192 S8192x8192 [1] [0] [0] [1] [] []
  gather_S8192x8192_S1000000x2_S1000000_n_01_n_n_01_1_11_wf : GatherDims.WF S8192x8192 S1000000x2 S1000000 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S1000000x2_S1000000_n_01_n_n_01_1_11 : GatherDims S8192x8192 S1000000x2 S1000000 where
  offsetDims := []
  collapsedSliceDims := [0, 1]
  operandBatchingDims := []
  startIndicesBatchingDims := []
  startIndexMap := [0, 1]
  indexVectorDim := 1
  sliceSizes := ![1, 1]
  wf := gather_S8192x8192_S1000000x2_S1000000_n_01_n_n_01_1_11_wf

class Facts : Prop extends Facts₀ where

variable [Facts]
-- ==== Proof.KPieces.lean ====
/-
  What the kernel body leaves in the one-element output block, case by case.

  With a, b, c the three gathered row blocks of a grid point and acc the block's running contents, write
  S a b c acc for the body's accumulating store: acc plus the block's sum of per-triple terms (the payload
  `k0_pay2` over the body's per-row quantities `k0_pay5`, `k0_pay7`, `k0_pay8`, `k0_pay9`).
    first point   : the block is reset to zero, read back, and left at  S a b c 0;
    middle points : left at  S a b c acc;
    last point    : S a b c acc is stored, read back, and rescaled by the named reciprocal (`k0_pay3`).
-/
import proofs.«413447_j32925219291441_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F] [Named F]

theorem hz : (![0, 0] : Fin 2 → Nat) = fun _ => 0 := funext fun a => by fin_cases a <;> rfl

/-- The accumulating store's value from the three row blocks and the running contents. -/
def stepAcc (a b c : Vec F S4000x128 .f32) (acc : Vec F S1x1 .f32) : Vec F S1x1 .f32 :=
  k0_pay2 (k0_pay5 a b c) (k0_pay7 a b c) (k0_pay8 a b c) (k0_pay9 a b c) (Scalar.ofBits .f32 0x00000000#32) acc

/-- Middle points: the one covering store's payload over the running contents. -/
theorem out_B (c : Dev nD) (i : grid0.Coords) (a1 : Memref sig .tc .vmem S4000x128 .f32) (h1 : a1.IsWhole)
    (a2 : Memref sig .tc .vmem S4000x128 .f32) (h2 : a2.IsWhole) (a3 : Memref sig .tc .vmem S4000x128 .f32) (h3 : a3.IsWhole)
    (a4 : Memref sig .tc .vmem S1x1 .f32) (h4 : a4.IsWhole) (hc0 : ¬cond0_0 i) (hc1 : ¬cond0_1 i)
    (x0 x1 x2 : Vec F S4000x128 .f32) (xo : Vec F S1x1 .f32) :
    out0_B_3 c i a1 h1 a2 h2 a3 h3 a4 h4 hc0 hc1 x0 x1 x2 xo = stepAcc x0 x1 x2 xo := by
  unfold out0_B_3
  rw [View.read_writes_eq_canon _ _ _ (cover0_B_3 c i a1 h1 a2 h2 a3 h3 a4 h4 hc0 hc1 x0 x1 x2 xo)]
  unfold kernelRun0_B
  dsimp only
  sl_unfold_words
  rw [View.canon_unit_zero hz]
  unfold stepAcc
  simp only [View.readAt_eq_ld, h1.read_unread, h2.read_unread, h3.read_unread, h4.read_unread,
    View.ld_unit_zero (S := S4000x128) hz, View.ld_unit_zero (S := S1x1) hz]

/-- The first point: the reset's zero block is what the accumulating store reads back. -/
theorem out_A (c : Dev nD) (i : grid0.Coords) (a1 : Memref sig .tc .vmem S4000x128 .f32) (h1 : a1.IsWhole)
    (a2 : Memref sig .tc .vmem S4000x128 .f32) (h2 : a2.IsWhole) (a3 : Memref sig .tc .vmem S4000x128 .f32) (h3 : a3.IsWhole)
    (a4 : Memref sig .tc .vmem S1x1 .f32) (h4 : a4.IsWhole) (hc0 : cond0_0 i) (hc1 : ¬cond0_1 i)
    (x0 x1 x2 : Vec F S4000x128 .f32) :
    out0_A_3 c i a1 h1 a2 h2 a3 h3 a4 h4 hc0 hc1 x0 x1 x2 = stepAcc x0 x1 x2 (k0_pay1 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz]
  unfold stepAcc
  simp only [View.readAt_eq_ld, h1.read_unread, h2.read_unread, h3.read_unread, h4.read_unread,
    View.ld_unit_zero (S := S4000x128) hz, View.ld_unit_zero (S := S1x1) hz, View.readCov_unit_zero (S := S1x1) _ hz]

/-- The last point: the accumulated sum is stored, read back and rescaled. -/
theorem out_C (c : Dev nD) (i : grid0.Coords) (a1 : Memref sig .tc .vmem S4000x128 .f32) (h1 : a1.IsWhole)
    (a2 : Memref sig .tc .vmem S4000x128 .f32) (h2 : a2.IsWhole) (a3 : Memref sig .tc .vmem S4000x128 .f32) (h3 : a3.IsWhole)
    (a4 : Memref sig .tc .vmem S1x1 .f32) (h4 : a4.IsWhole) (hc0 : ¬cond0_0 i) (hc1 : cond0_1 i)
    (x0 x1 x2 : Vec F S4000x128 .f32) (xo : Vec F S1x1 .f32) :
    out0_C_3 c i a1 h1 a2 h2 a3 h3 a4 h4 hc0 hc1 x0 x1 x2 xo = k0_pay3 (stepAcc x0 x1 x2 xo) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1x1) hz]
  unfold stepAcc
  simp only [View.readAt_eq_ld, h1.read_unread, h2.read_unread, h3.read_unread, h4.read_unread,
    View.ld_unit_zero (S := S4000x128) hz, View.ld_unit_zero (S := S1x1) hz, View.readCov_unit_zero (S := S1x1) _ hz]

end Cert.KernelIdeal.KValue

end
-- ==== Proof.Spec.lean ====
/-
  The triplet loss as one function of the feature table x : [8192, 128] and the index triples : [1000000, 3],
  over the extended reals.

  A start index selects a table row by being read as a signed integer and clamped into the table (what a
  gather does with it). For rows p, q the squared distance is  max (⟨p,p⟩ + ⟨q,q⟩ - 2⟨p,q⟩) 0  with ⟨p,q⟩ the
  inner product of the two rows; a triple (a, p, n) contributes  softplus (dist a p - dist a n), softplus d
  spelt  max 0 d + log1p (exp (-|0 - d|)); the loss is the sum over all triples times 1/1000000.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The table's shape and the triples' shape. -/
abbrev SX : Shape := ⟨2, ![8192, 128]⟩
abbrev STrip : Shape := ⟨2, ![1000000, 3]⟩

/-- The table row a start index selects: the word read as a signed integer, clamped into `[0, 8191]`. -/
def rowOf (w : BitVec 32) : Fin 8192 := ⟨min w.toInt.toNat 8191, by omega⟩

/-- A non-negative start index is not moved by adding the table's height when it is negative. -/
theorem rowOf_wrap_of_nonneg (w : BitVec 32) (h : 0 ≤ w.toInt) :
    rowOf (if w.slt 0#32 then w + 8192#32 else w) = rowOf w := by
  have : w.slt 0#32 = false := by
    simp only [BitVec.slt, BitVec.toInt_zero, decide_eq_false_iff_not, not_lt]; exact h
  rw [this]; rfl

variable (x : SX.Idx → EReal) (trip : STrip.Idx → BitVec 32)

/-- The inner product of rows `p` and `q`. -/
def dotp (p q : Fin 8192) : EReal := ∑ l : Fin 128, x (ix2 p l) * x (ix2 q l)

/-- The factor 2, as the float word both programs carry. -/
def two : EReal := Ideal.ofBits .f32 0x40000000#32

/-- The squared distance of rows `p` and `q`, clamped below at 0. -/
def dist (p q : Fin 8192) : EReal := max (dotp x p p + dotp x q q - two * dotp x p q) 0

/-- `log (1 + exp d)` as `logaddexp 0 d` spells it. -/
def softplus (d : EReal) : EReal := max 0 d + Ideal.log1p (Ideal.exp (-(max (0 - d) (-(0 - d)))))

/-- The three rows triple `t` names. -/
def anchor (t : Fin 1000000) : Fin 8192 := rowOf (trip (ix2 t (0 : Fin 3)))
def pos (t : Fin 1000000) : Fin 8192 := rowOf (trip (ix2 t (1 : Fin 3)))
def neg (t : Fin 1000000) : Fin 8192 := rowOf (trip (ix2 t (2 : Fin 3)))

/-- Triple `t`'s term. -/
def per (t : Fin 1000000) : EReal :=
  softplus (dist x (anchor trip t) (pos trip t) - dist x (anchor trip t) (neg trip t))

/-- The loss: the mean over the triples, as the sum times `1/1000000`. -/
def loss : EReal := (∑ t : Fin 1000000, per x trip t) * ((1 / 1000000 : ℝ) : EReal)

/-- Triple number `t`'s term, `0` past the last triple: the terms as a sequence, for sums over ranges. -/
def perN (t : ℕ) : EReal := if h : t < 1000000 then per x trip ⟨t, h⟩ else 0

theorem sum_perN : ∑ t ∈ Finset.range 1000000, perN x trip t = ∑ t : Fin 1000000, per x trip t := by
  rw [Finset.sum_range]
  exact Finset.sum_congr rfl fun t _ => dif_pos t.isLt

/-- The terms of the 4000 triples of block `n` (of 250) extend the sum of the blocks before it. -/
theorem sum_perN_block (n : ℕ) :
    ∑ t ∈ Finset.range (4000 * (n + 1)), perN x trip t
      = ∑ t ∈ Finset.range (4000 * n), perN x trip t + ∑ s : Fin 4000, perN x trip (4000 * n + s.val) := by
  rw [show 4000 * (n + 1) = 4000 * n + 4000 by ring, Finset.sum_range_add]
  congr 1

end Cert.Spec

end
-- ==== Proof.KGather.lean ====
/-
  The three arrays the kernel's windows stage, and their blocks.

  Column k of the index triples is sliced out, flattened, kept as a [1000000, 1] column of start indices, and a
  row gather of the feature table at that column makes the [1000000, 128] array of window k: its entry (t, l) is
  the table at (row, l), row being the start index of triple t in column k read as a signed integer and clamped
  into the table. Block n of 250 of such an array holds the rows of the triples 4000 n … 4000 n + 3999.
-/
import proofs.«413447_j32925219291441_3_alg».proof.Proof.KPieces
import proofs.«413447_j32925219291441_3_alg».proof.Proof.Spec
import Idealize.ShloMosaic.Lib.StableHlo.Run
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.StableHlo

namespace Cert.KernelIdeal.KValue

open Cert.KernelIdeal Cert.KernelIdeal.Gen

/-- The row gather read at (t, l): the table at the clamped start index of position t, lane l. Axis 0 is collapsed
    and named by the start index map (only the clamped start remains there); axis 1 is an offset axis with no
    start (only the lane remains there). -/
theorem gather_rows_apply {α : Type} (y : S8192x128.Idx → α) (idx : IVec S1000000x1 32) (t : Fin 1000000) (l : Fin 128) :
    Host.gather gather_S8192x128_S1000000x1_S1000000x128_1_0_n_n_0_1_1128 y idx (ix2 t l)
      = y (ix2 (Cert.Spec.rowOf (idx (ix2 t (0 : Fin 1)))) l) := by
  unfold Host.gather
  refine congrArg y (funext fun a => Fin.ext ?_)
  show gather_S8192x128_S1000000x1_S1000000x128_1_0_n_n_0_1_1128.start (ix2 t l) idx a
      + gather_S8192x128_S1000000x1_S1000000x128_1_0_n_n_0_1_1128.batchCoord (ix2 t l) a
      + gather_S8192x128_S1000000x1_S1000000x128_1_0_n_n_0_1_1128.offCoord (ix2 t l) a = _
  rw [GatherDims.batchCoord_eq_zero _ _ _ List.not_mem_nil]
  simp only [Nat.add_zero]
  match a with
  | ⟨0, _⟩ =>
    have hk : (⟨0, by decide⟩ : Fin 2) ∉ gather_S8192x128_S1000000x1_S1000000x128_1_0_n_n_0_1_1128.sKept := fun h =>
      ((GatherDims.mem_sKept _ _).mp h).1 List.mem_cons_self
    rw [GatherDims.offCoord_eq_zero _ _ _ hk, Nat.add_zero]
    unfold GatherDims.start
    have hm : (⟨0, by decide⟩ : Fin 2) ∈ gather_S8192x128_S1000000x1_S1000000x128_1_0_n_n_0_1_1128.startIndexMap :=
      List.mem_cons_self
    rw [dif_pos hm]
    have hsi : gather_S8192x128_S1000000x1_S1000000x128_1_0_n_n_0_1_1128.siIdx (ix2 t l)
        ⟨List.idxOf (⟨0, by decide⟩ : Fin 2) gather_S8192x128_S1000000x1_S1000000x128_1_0_n_n_0_1_1128.startIndexMap,
          List.idxOf_lt_length_iff.2 hm⟩ = ix2 t (0 : Fin 1) := by
      funext b; refine Fin.ext ?_
      match b with
      | ⟨0, _⟩ => rfl
      | ⟨1, _⟩ => rfl
    rw [hsi]
    rfl
  | ⟨1, _⟩ =>
    unfold GatherDims.start
    have hm : (⟨1, by decide⟩ : Fin 2) ∉ gather_S8192x128_S1000000x1_S1000000x128_1_0_n_n_0_1_1128.startIndexMap := by
      show (⟨1, by decide⟩ : Fin 2) ∉ ([0] : List (Fin 2)); decide
    rw [dif_neg hm, Nat.zero_add]
    rfl

/-- Column `off 1` of the triples as the [1000000, 1] column of start indices a gather reads. -/
def startCol (trip : IVec S1000000x3 32) (off : Fin 2 → Nat) (hs : S1000000x3.Slices off S1000000x1) : IVec S1000000x1 32 :=
  broadcastInDim S1000000x1 ![0] Gen.bcast_S1000000_S1000000x1_0
    (shapeCast S1000000 (extractStridedSlice S1000000x1 off trip hs) Gen.shapeCasts_S1000000x1_S1000000)

/-- Its entry t is the triple's component k. -/
theorem startCol_apply (trip : IVec S1000000x3 32) (k : Fin 3) (off : Fin 2 → Nat) (hoff : off = ![0, k.val])
    (hs : S1000000x3.Slices off S1000000x1) (t : Fin 1000000) :
    startCol trip off hs (ix2 t (0 : Fin 1)) = trip (ix2 t k) := by
  subst hoff
  unfold startCol
  rw [broadcastInDim_apply _ _ _ (ix2 t (0 : Fin 1)) (ix1 t) (fun a => by
    match a with
    | ⟨0, _⟩ => rfl)]
  rw [shapeCast_apply _ _ (ix1 t) (ix2 t (0 : Fin 1)) (by
    rw [Shape.rowMajor_val_one, Shape.rowMajor_val_two]; simp)]
  unfold extractStridedSlice
  refine congrArg trip (funext fun a => Fin.ext ?_)
  match a with
  | ⟨0, _⟩ => show 0 + t.val = t.val; omega
  | ⟨1, _⟩ => show k.val + 0 = k.val; omega

variable {F : FTy → Type} [FloatOps F] [Named F]
variable (m : (ℓ : Loc nD τ sig) → Buf (Elt F) ℓ)

/-- The feature table and the index triples as launched. -/
abbrev tab (c : Dev nD) : S8192x128.Idx → Elt F .f32 := m ((c : Thread nD τ).loc main_arg0)
abbrev trips (c : Dev nD) : IVec S1000000x3 32 := m ((c : Thread nD τ).loc main_arg1)

/-- The three staged arrays, at their literal type. -/
abbrev arrA (c : Dev nD) : S1000000x128.Idx → Elt F .f32 := V m c main_v6
abbrev arrP (c : Dev nD) : S1000000x128.Idx → Elt F .f32 := V m c main_v7
abbrev arrN (c : Dev nD) : S1000000x128.Idx → Elt F .f32 := V m c main_v8

theorem arrA_eq (c : Dev nD) : arrA m c = Host.gather gather_S8192x128_S1000000x1_S1000000x128_1_0_n_n_0_1_1128 (tab m c)
    (startCol (trips m c) ![0, 0] Gen.slices_S1000000x3_S1000000x1_0_0) := by
  dsimp only [arrA, Gen.V, Gen.V0]
  simp only [Gen.hostOps0, Gen.hostOps0_1, Gen.hostOps0_2, Gen.hostOps0_3, List.flatten_cons, List.flatten_nil,
    List.append_nil, List.cons_append, List.nil_append]
  after_results
  rfl

theorem arrP_eq (c : Dev nD) : arrP m c = Host.gather gather_S8192x128_S1000000x1_S1000000x128_1_0_n_n_0_1_1128 (tab m c)
    (startCol (trips m c) ![0, 1] Gen.slices_S1000000x3_S1000000x1_0_1) := by
  dsimp only [arrP, Gen.V, Gen.V0]
  simp only [Gen.hostOps0, Gen.hostOps0_1, Gen.hostOps0_2, Gen.hostOps0_3, List.flatten_cons, List.flatten_nil,
    List.append_nil, List.cons_append, List.nil_append]
  after_results
  rfl

theorem arrN_eq (c : Dev nD) : arrN m c = Host.gather gather_S8192x128_S1000000x1_S1000000x128_1_0_n_n_0_1_1128 (tab m c)
    (startCol (trips m c) ![0, 2] Gen.slices_S1000000x3_S1000000x1_0_2) := by
  dsimp only [arrN, Gen.V, Gen.V0]
  simp only [Gen.hostOps0, Gen.hostOps0_1, Gen.hostOps0_2, Gen.hostOps0_3, List.flatten_cons, List.flatten_nil,
    List.append_nil, List.cons_append, List.nil_append]
  after_results
  rfl

/-- Entry (t, l) of each staged array: the table at the row the triple's component names. -/
theorem arrA_apply (c : Dev nD) (t : Fin 1000000) (l : Fin 128) :
    arrA m c (ix2 t l) = tab m c (ix2 (Cert.Spec.anchor (trips m c) t) l) := by
  rw [arrA_eq, gather_rows_apply, startCol_apply (trips m c) 0 ![0, 0] rfl Gen.slices_S1000000x3_S1000000x1_0_0 t]; rfl
theorem arrP_apply (c : Dev nD) (t : Fin 1000000) (l : Fin 128) :
    arrP m c (ix2 t l) = tab m c (ix2 (Cert.Spec.pos (trips m c) t) l) := by
  rw [arrP_eq, gather_rows_apply, startCol_apply (trips m c) 1 ![0, 1] rfl Gen.slices_S1000000x3_S1000000x1_0_1 t]; rfl
theorem arrN_apply (c : Dev nD) (t : Fin 1000000) (l : Fin 128) :
    arrN m c (ix2 t l) = tab m c (ix2 (Cert.Spec.neg (trips m c) t) l) := by
  rw [arrN_eq, gather_rows_apply, startCol_apply (trips m c) 2 ![0, 2] rfl Gen.slices_S1000000x3_S1000000x1_0_2 t]; rfl

end Cert.KernelIdeal.KValue

end
-- ==== Proof.KPayload.lean ====
/-
  The body's arithmetic at a grid point, read over the extended reals.

  For row blocks a, b, c : [4000, 128] write ⟨u,v⟩ₛ for the inner product of row s of u and row s of v, and
  D u v s = max (⟨u,u⟩ₛ + ⟨v,v⟩ₛ - 2⟨u,v⟩ₛ) 0. The accumulating store leaves, at the block's one index,
      acc + ∑ s, softplus (D a b s - D a c s),
  the lane sums and the column sum being plain finite sums, the comparison  y ≠ y  never holding; the reset
  block is 0 there and the last point's rescaling multiplies by the named reciprocal 1/1000000.
-/
import proofs.«413447_j32925219291441_3_alg».proof.Proof.KPieces
import proofs.«413447_j32925219291441_3_alg».proof.Proof.Spec
import Idealize.ShloMosaic.PureOps.Ideal.Laws
import Idealize.ShloMosaic.PureOps.IdealRules
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Facts₀

/-- The inner product of row `s` of block `u` with row `s` of block `v`. -/
def bdot (u v : Vec Ideal S4000x128 .f32) (s : Fin 4000) : EReal := ∑ l : Fin 128, u (ix2 s l) * v (ix2 s l)

/-- The clamped squared distance of row `s` of `u` and row `s` of `v`. -/
def bdist (u v : Vec Ideal S4000x128 .f32) (s : Fin 4000) : EReal :=
  max (bdot u u s + bdot v v s - Cert.Spec.two * bdot u v s) 0

/-- A lane sum of a product, kept as a column: entry (s, 0) is the inner product of the two rows s. -/
theorem rowsum_apply (u v : FVec Ideal S4000x128 .f32) (s : Fin 4000) (h : S4000x128.Reduces [1] S4000)
    (hc : S4000.ShapeCasts S4000x1) (hφ : FKind.Formats .f32) (hacc : (0x00000000#32 : BitVec FTy.f32.bits) = 0x00000000#32) :
    shapeCast S4000x1 (multiReduction (F := Ideal) .add [1] S4000 (mulf u v) 0x00000000#32 h hφ hacc)
      hc (ix2 s (0 : Fin 1)) = bdot u v s := by
  rw [shapeCast_apply _ _ (ix2 s (0 : Fin 1)) (ix1 s) (by
    rw [Shape.rowMajor_val_one, Shape.rowMajor_val_two]; simp)]
  refine (Ideal.multiReduction_add_single (mulf u v) 0x00000000#32 h hφ hacc (ix1 s)).trans ?_
  unfold bdot
  refine Finset.sum_congr rfl fun l _ => ?_
  have e : h.lift (ix1 s) l = ix2 s l := by
    funext a; apply Fin.ext
    match a with
    | ⟨0, _⟩ => rfl
    | ⟨1, _⟩ => rfl
  rw [e]; rfl

theorem cmp_one_self (y : EReal) : Ideal.cmp .one y y = 0#1 := by simp [Ideal.cmp]

/-- The per-row difference of clamped distances. -/
theorem pay4_apply (a b c : Vec Ideal S4000x128 .f32) (s : Fin 4000) :
    k0_pay4 (F := Ideal) a b c (ix2 s (0 : Fin 1)) = bdist a b s - bdist a c s := by
  unfold k0_pay4
  simp only [shapeCast_self]
  simp only [subf_apply, maximumf_apply, addf_apply, mulf_apply, broadcast_apply, rowsum_apply]
  have e := fun (u v : FVec Ideal S4000x128 .f32) =>
    rowsum_apply u v s Gen.reduces_S4000x128_S4000 Gen.shapeCasts_S4000_S4000x1 (Or.inl rfl) rfl
  erw [e a a, e b b, e a b, e c c, e a c]
  simp only [bdist, Cert.Spec.two, Ideal.ofBits_def, Ideal.ofBits_zero_f32]

/-- A column's sum over its 4000 rows, kept as a one-element block. -/
theorem colsum_apply (w : FVec Ideal S4000x1 .f32) (h : S4000x1.Reduces [0] S1) (hc : S1.ShapeCasts S1x1)
    (hφ : FKind.Formats .f32) (hacc : (0x00000000#32 : BitVec FTy.f32.bits) = 0x00000000#32) :
    shapeCast S1x1 (multiReduction (F := Ideal) .add [0] S1 w 0x00000000#32 h hφ hacc) hc (ix2 (0 : Fin 1) (0 : Fin 1))
      = ∑ s : Fin 4000, w (ix2 s (0 : Fin 1)) := by
  rw [shapeCast_apply _ _ (ix2 (0 : Fin 1) (0 : Fin 1)) (ix1 (0 : Fin 1)) (by
    rw [Shape.rowMajor_val_one, Shape.rowMajor_val_two]; simp)]
  refine (Ideal.multiReduction_add_single w 0x00000000#32 h hφ hacc (ix1 (0 : Fin 1))).trans ?_
  refine Finset.sum_congr rfl fun s _ => ?_
  have e : h.lift (ix1 (0 : Fin 1)) s = ix2 s (0 : Fin 1) := by
    funext a; apply Fin.ext
    match a with
    | ⟨0, _⟩ => rfl
    | ⟨1, _⟩ => rfl
  exact congrArg w e

/-- Row `s`'s term of the block: the softplus of the difference of the two clamped distances. -/
theorem term_apply (a b c : Vec Ideal S4000x128 .f32) (s : Fin 4000) :
    select (k0_pay7 (F := Ideal) a b c) (k0_pay8 (F := Ideal) a b c)
        (addf (k0_pay5 (F := Ideal) a b c)
          (log1p (exp (subf (broadcast S4000x1 (Scalar.ofBits (F := Ideal) .f32 0x00000000#32)) (k0_pay9 (F := Ideal) a b c)))))
        (ix2 s (0 : Fin 1))
      = Cert.Spec.softplus (bdist a b s - bdist a c s) := by
  rw [select_apply]
  unfold k0_pay7
  rw [cmpf_apply, Ideal.cmpf_def, cmp_one_self, select_zero]
  unfold k0_pay5 k0_pay9 k0_pay6
  simp only [addf_apply, subf_apply, maximumf_apply, broadcast_apply, log1p, exp, absf, pay4_apply,
    Ideal.log1p_def, Ideal.exp_def, Ideal.absf_def, Ideal.ofBits_def, Ideal.ofBits_zero_f32, Cert.Spec.softplus]
  rw [zero_sub (max _ _)]

/-- The accumulating store at the block's one index: the running contents plus the block's terms. -/
theorem stepAcc_apply (a b c : Vec Ideal S4000x128 .f32) (acc : Vec Ideal S1x1 .f32) :
    stepAcc (F := Ideal) a b c acc (ix2 (0 : Fin 1) (0 : Fin 1))
      = acc (ix2 (0 : Fin 1) (0 : Fin 1)) + ∑ s : Fin 4000, Cert.Spec.softplus (bdist a b s - bdist a c s) := by
  unfold stepAcc k0_pay2
  simp only [shapeCast_self]
  rw [addf_apply]
  refine congrArg (acc (ix2 (0 : Fin 1) (0 : Fin 1)) + ·) ?_
  refine (colsum_apply _ Gen.reduces_S4000x1_S1 Gen.shapeCasts_S1_S1x1 (Or.inl rfl) rfl).trans ?_
  exact Finset.sum_congr rfl fun s _ => term_apply a b c s

/-- The reset block is zero. -/
theorem pay1_apply : k0_pay1 (F := Ideal) (ix2 (0 : Fin 1) (0 : Fin 1)) = 0 := by
  unfold k0_pay1
  rw [broadcast_apply]
  exact Ideal.ofBits_zero_f32

/-- The named reciprocal is the rational it names. -/
theorem inv_million : Named.named (F := Ideal) Cert.KernelIdeal.κ "inv_1000000" (φ := .f32) 0x358637BD#32
    = ((1 / 1000000 : ℝ) : EReal) :=
  IdealRules.named_const.ideal_named_scalar _ _ _ _ rfl

/-- The last point's rescaling multiplies by 1/1000000. -/
theorem pay3_apply (v : Vec Ideal S1x1 .f32) :
    k0_pay3 (F := Ideal) v (ix2 (0 : Fin 1) (0 : Fin 1)) = v (ix2 (0 : Fin 1) (0 : Fin 1)) * ((1 / 1000000 : ℝ) : EReal) := by
  unfold k0_pay3
  simp only [shapeCast_self, mulf_apply, broadcast_apply, inv_million]

end Cert.KernelIdeal.KValue

end
-- ==== Proof.KAccum.lean ====
/-
  The running contents of the one-element output block, point by point.

  Row s of block n of the three staged arrays holds the table rows of triple number 4000 n + s, so the block's
  terms are the loss's terms 4000 n … 4000 n + 3999. By induction on the point, after point n < 249 the block
  holds the sum of the first 4000 (n + 1) terms; the last point adds the last 4000 and rescales: the loss.
-/
import proofs.«413447_j32925219291441_3_alg».proof.Proof.KGather
import proofs.«413447_j32925219291441_3_alg».proof.Proof.KPayload

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ)

/-- The three input blocks at a point, at their literal type. -/
abbrev blkA (c : Dev nD) (t : Fin cfg0.N) : Vec Ideal S4000x128 .f32 := iblk m c 0 t
abbrev blkP (c : Dev nD) (t : Fin cfg0.N) : Vec Ideal S4000x128 .f32 := iblk m c 1 t
abbrev blkN (c : Dev nD) (t : Fin cfg0.N) : Vec Ideal S4000x128 .f32 := iblk m c 2 t

/-- Each input window's block index at point t is (t, 0). -/
theorem idx_facts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- Triple number 4000 t + s exists. -/
theorem tnum_lt (t : Fin cfg0.N) (s : Fin 4000) : 4000 * t.val + s.val < 1000000 := by
  have hN : t.val < 250 := lt_of_lt_of_eq t.isLt (show cfg0.N = 250 from N_0)
  have := s.isLt
  omega

/-- The triple a block row holds. -/
abbrev tnum (t : Fin cfg0.N) (s : Fin 4000) : Fin 1000000 := ⟨4000 * t.val + s.val, tnum_lt t s⟩

theorem blkA_apply (c : Dev nD) (t : Fin cfg0.N) (s : Fin 4000) (l : Fin 128) :
    blkA m c t (ix2 s l) = arrA m c (ix2 (tnum t s) l) := by
  have hi := (idx_facts t).1
  unfold blkA iblk
  rw [View.read_apply]
  show V m c main_v6 _ = V m c main_v6 _
  congr 1
  funext a
  apply Fin.ext
  match a with
  | ⟨0, _⟩ => show win0_0.index t 0 * 4000 + 1 * s.val = 4000 * t.val + s.val; rw [hi.1]; omega
  | ⟨1, _⟩ => show win0_0.index t 1 * 128 + 1 * l.val = l.val; rw [hi.2]; omega

theorem blkP_apply (c : Dev nD) (t : Fin cfg0.N) (s : Fin 4000) (l : Fin 128) :
    blkP m c t (ix2 s l) = arrP m c (ix2 (tnum t s) l) := by
  have hi := (idx_facts t).2.1
  unfold blkP iblk
  rw [View.read_apply]
  show V m c main_v7 _ = V m c main_v7 _
  congr 1
  funext a
  apply Fin.ext
  match a with
  | ⟨0, _⟩ => show win0_1.index t 0 * 4000 + 1 * s.val = 4000 * t.val + s.val; rw [hi.1]; omega
  | ⟨1, _⟩ => show win0_1.index t 1 * 128 + 1 * l.val = l.val; rw [hi.2]; omega

theorem blkN_apply (c : Dev nD) (t : Fin cfg0.N) (s : Fin 4000) (l : Fin 128) :
    blkN m c t (ix2 s l) = arrN m c (ix2 (tnum t s) l) := by
  have hi := (idx_facts t).2.2
  unfold blkN iblk
  rw [View.read_apply]
  show V m c main_v8 _ = V m c main_v8 _
  congr 1
  funext a
  apply Fin.ext
  match a with
  | ⟨0, _⟩ => show win0_2.index t 0 * 4000 + 1 * s.val = 4000 * t.val + s.val; rw [hi.1]; omega
  | ⟨1, _⟩ => show win0_2.index t 1 * 128 + 1 * l.val = l.val; rw [hi.2]; omega

/-- Blocks whose rows s are table rows p and q have, at row s, the table's inner product of p and q; -/
theorem bdot_rows (x : Cert.Spec.SX.Idx → EReal) (u v : Vec Ideal S4000x128 .f32) (s : Fin 4000) (p q : Fin 8192)
    (hu : ∀ l : Fin 128, u (ix2 s l) = x (ix2 p l)) (hv : ∀ l : Fin 128, v (ix2 s l) = x (ix2 q l)) :
    bdot u v s = Cert.Spec.dotp x p q :=
  Finset.sum_congr rfl fun l _ => by rw [hu l, hv l]

/-- and the table's clamped distance of p and q. -/
theorem bdist_rows (x : Cert.Spec.SX.Idx → EReal) (u v : Vec Ideal S4000x128 .f32) (s : Fin 4000) (p q : Fin 8192)
    (hu : ∀ l : Fin 128, u (ix2 s l) = x (ix2 p l)) (hv : ∀ l : Fin 128, v (ix2 s l) = x (ix2 q l)) :
    bdist u v s = Cert.Spec.dist x p q := by
  unfold bdist Cert.Spec.dist
  rw [bdot_rows x u u s p p hu hu, bdot_rows x v v s q q hv hv, bdot_rows x u v s p q hu hv]

/-- A block row's clamped distances are the table's, at the rows the triple names. -/
theorem bdist_AP (c : Dev nD) (t : Fin cfg0.N) (s : Fin 4000) :
    bdist (blkA m c t) (blkP m c t) s
      = Cert.Spec.dist (tab m c) (Cert.Spec.anchor (trips m c) (tnum t s)) (Cert.Spec.pos (trips m c) (tnum t s)) :=
  bdist_rows (tab m c) (blkA m c t) (blkP m c t) s _ _
    (fun l => (blkA_apply m c t s l).trans (arrA_apply m c (tnum t s) l))
    (fun l => (blkP_apply m c t s l).trans (arrP_apply m c (tnum t s) l))

theorem bdist_AN (c : Dev nD) (t : Fin cfg0.N) (s : Fin 4000) :
    bdist (blkA m c t) (blkN m c t) s
      = Cert.Spec.dist (tab m c) (Cert.Spec.anchor (trips m c) (tnum t s)) (Cert.Spec.neg (trips m c) (tnum t s)) :=
  bdist_rows (tab m c) (blkA m c t) (blkN m c t) s _ _
    (fun l => (blkA_apply m c t s l).trans (arrA_apply m c (tnum t s) l))
    (fun l => (blkN_apply m c t s l).trans (arrN_apply m c (tnum t s) l))

/-- The block's terms are the loss's terms of its 4000 triples. -/
theorem block_terms (c : Dev nD) (t : Fin cfg0.N) :
    ∑ s : Fin 4000, Cert.Spec.softplus (bdist (blkA m c t) (blkP m c t) s - bdist (blkA m c t) (blkN m c t) s)
      = ∑ s : Fin 4000, Cert.Spec.perN (tab m c) (trips m c) (4000 * t.val + s.val) := by
  refine Finset.sum_congr rfl fun s _ => ?_
  rw [bdist_AP, bdist_AN]
  unfold Cert.Spec.perN
  rw [dif_pos (tnum_lt t s)]
  rfl

/-- After point n < 249 the block holds the first 4000 (n + 1) terms' sum. -/
theorem outsAt_eq (c : Dev nD) : ∀ (n : ℕ) (h : n < cfg0.N), n < 249 →
    outsAt0 m c n h (ix2 (0 : Fin 1) (0 : Fin 1))
      = ∑ t ∈ Finset.range (4000 * (n + 1)), Cert.Spec.perN (tab m c) (trips m c) t
  | 0, h, _ => by
    rw [outsAt0_A m c ⟨0, h⟩ rfl (by dsimp only; omega), out_A, stepAcc_apply, pay1_apply, zero_add,
      Cert.Spec.sum_perN_block, Finset.range_zero, Finset.sum_empty, zero_add]
    exact block_terms m c ⟨0, h⟩
  | n + 1, h, hlt => by
    have hB0 : ¬(⟨n + 1, h⟩ : Fin cfg0.N).val % 250 = 0 := by dsimp only; omega
    have hB1 : ¬(⟨n + 1, h⟩ : Fin cfg0.N).val % 250 = 249 := by dsimp only; omega
    rw [outsAt0_B m c ⟨n + 1, h⟩ hB0 hB1, out_B, stepAcc_apply]
    show outsAt0 m c n _ (ix2 (0 : Fin 1) (0 : Fin 1)) + _ = _
    rw [outsAt_eq c n _ (by omega), Cert.Spec.sum_perN_block (tab m c) (trips m c) (n + 1)]
    exact congrArg _ (block_terms m c ⟨n + 1, h⟩)

/-- After the last point the block holds the loss. -/
theorem outsAt_last (c : Dev nD) (h : 249 < cfg0.N) :
    outsAt0 m c 249 h (ix2 (0 : Fin 1) (0 : Fin 1)) = Cert.Spec.loss (tab m c) (trips m c) := by
  have hC0 : ¬(⟨249, h⟩ : Fin cfg0.N).val % 250 = 0 := by dsimp only; omega
  have hC1 : (⟨249, h⟩ : Fin cfg0.N).val % 250 = 249 := by dsimp only
  rw [outsAt0_C m c ⟨249, h⟩ hC0 hC1, out_C, pay3_apply, stepAcc_apply]
  show (outsAt0 m c 248 _ (ix2 (0 : Fin 1) (0 : Fin 1)) + _) * _ = _
  rw [outsAt_eq m c 248 _ (by decide), block_terms m c ⟨249, h⟩]
  unfold Cert.Spec.loss
  rw [← Cert.Spec.sum_perN, show (1000000 : ℕ) = 4000 * (249 + 1) from rfl,
    Cert.Spec.sum_perN_block (tab m c) (trips m c) 249]

end Cert.KernelIdeal.KValue

end
-- ==== Proof.KValue.lean ====
/-
  The idealized kernel's run, read: its result is the loss.

  The output window's one block is the whole [1, 1] array and is written back once, after the last point, when
  it holds the loss; the reshape after the region reads that one element as the [1] result.
-/
import proofs.«413447_j32925219291441_3_alg».proof.Proof.KAccum
import Idealize.ShloMosaic.Lib.StableHlo.Run

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.KValue

open Cert.KernelIdeal Cert.KernelIdeal.Gen

variable (m : (ℓ : Loc nD τ sig) → Buf (Elt Ideal) ℓ) (ρ : Dev nD → PrngReg)

/-- The last grid point. -/
abbrev tLast : Fin cfg0.N := ⟨249, by rw [show cfg0.N = 250 from N_0]; decide⟩

/-- The one-element array holding the loss. -/
abbrev lossArr (c : Dev nD) : Buf (Elt Ideal) ((c : Thread nD τ).loc main_v9) :=
  fun _ => Cert.Spec.loss (tab m c) (trips m c)

/-- What the body leaves after the last point is that array. -/
theorem outsAt_last_eq (c : Dev nD) : outsAt0 m c tLast.val tLast.isLt = lossArr m c := by
  funext y
  have e : y = ix2 (0 : Fin 1) (0 : Fin 1) := by
    funext a
    apply Fin.ext
    match a with
    | ⟨0, _⟩ => have := idx2_lt0 y; show (y 0).val = 0; omega
    | ⟨1, _⟩ => have := idx2_lt1 y; show (y 1).val = 0; omega
  rw [e]
  exact outsAt_last m c tLast.isLt

/-- The one write-back, at the last point, writes it: block (0, 0) of the array read at zero offsets is the array. -/
theorem flushed_eq (c : Dev nD) (t : Fin cfg0.N) (hf : (cfg0.win 3).flush t = true) :
    (dats m 0 c).flushed 3 t = ((cfg0.win 3).blk t).view.read (Elt Ideal) (lossArr m c) := by
  have hN : cfg0.N = 250 := N_0
  have h249 : t.val = 249 := by have := (flush0_3 t).mp hf; have := t.isLt; omega
  obtain rfl : t = tLast := Fin.ext h249
  show (cfg0.win 3).cut (grid0.coords tLast) ((dats m 0 c).after 3 tLast) = _
  rw [after0_3, outsAt_last_eq]
  have hz' : (fun a => win0_3.index tLast a * main_v9.ty.shape.size a) = fun _ => 0 :=
    funext fun a => by fin_cases a <;> decide +kernel
  exact (Memref.read_access_unit_zero (Elt Ideal) main_v9 hz' (fun a => by rw [congrFun hz' a]; simp) (lossArr m c)).symm

/-- So the result array ends holding the loss. -/
theorem final_o (c : Dev nD) : (dats m 0 c).arrAt 3 cfg0.N = lossArr m c :=
  (dats m 0 c).arrAt_eq_of_cover 3 (lossArr m c) (flushed_eq m c) fun i =>
    ⟨tLast, (flush0_3 tLast).mpr rfl, by
      show i ∈ ((View.whole main_v9).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The reshape after the region: the [1] result is the loss. -/
theorem tail_result (c : Dev nD) :
    Pipeline.afterTail₀ cfgs (dats m) 0 (V0 m) [hostOps1] c main_v10 = fun _ => Cert.Spec.loss (tab m c) (trips m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.tc.devRef main_v9) = lossArr m c :=
    (Pipeline.withArrays_arr spec0 launch0.win.arr_inj c (V0 m c) (fun w => (dats m 0 c).arrAt w (cfgs 0).N) 3).trans
      (final_o m c)
  funext i
  simp only [hw]
  rfl

/-- The run, read: the result at the loss, the arguments unchanged. -/
theorem run : θ_run defs (onTc (τ := τ) (main (F := Ideal))) ⟨m, fun _ => 0, ρ⟩ fun r => ∀ c : Dev nD,
      r.2.mem ((c.tc : Thread nD τ).loc main_v10) = (fun _ => Cert.Spec.loss (tab m c) (trips m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result, read stage by stage, is the triplet loss of the specification.
-/
import proofs.«413447_j32925219291441_3_alg».proof.Proof.Gen.ReferenceIdeal.Read
import proofs.«413447_j32925219291441_3_alg».proof.Proof.Spec
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The divisor's float word denotes the real `1000000` (`15625 · 2⁶`, exactly representable). -/
theorem ofBits_million : Ideal.ofBits .f32 0x49742400#32 = ((1000000 : ℝ) : EReal) := by
  simp [Ideal.ofBits, Ideal.ieee, -EReal.coe_mul]; norm_num

/-- The gather of the two-axis table at an array of (row, column) start indices, read at triple `t`: the table at
    the two start-index components, each read signed and clamped into the table. Both operand axes are collapsed and
    named by the start index map, so the batching and offset coordinates vanish and only the clamped start remains. -/
theorem gather_pair_apply {α : Type} (y : S8192x8192.Idx → α) (idx : IVec S1000000x2 32) (t : Fin 1000000) :
    Host.gather gather_S8192x8192_S1000000x2_S1000000_n_01_n_n_01_1_11 y idx (ix1 t)
      = y (ix2 (Cert.Spec.rowOf (idx (ix2 t (0 : Fin 2)))) (Cert.Spec.rowOf (idx (ix2 t (1 : Fin 2))))) := by
  unfold Host.gather
  refine congrArg y (funext fun a => Fin.ext ?_)
  have hcol : ∀ a : Fin 2, a ∉ gather_S8192x8192_S1000000x2_S1000000_n_01_n_n_01_1_11.sKept := fun a h =>
    ((GatherDims.mem_sKept _ _).mp h).1 (by
      show a ∈ ([0, 1] : List (Fin 2))
      match a with
      | ⟨0, _⟩ => exact List.mem_cons_self
      | ⟨1, _⟩ => exact List.mem_cons_of_mem _ List.mem_cons_self)
  show gather_S8192x8192_S1000000x2_S1000000_n_01_n_n_01_1_11.start (ix1 t) idx a
      + gather_S8192x8192_S1000000x2_S1000000_n_01_n_n_01_1_11.batchCoord (ix1 t) a
      + gather_S8192x8192_S1000000x2_S1000000_n_01_n_n_01_1_11.offCoord (ix1 t) a = _
  rw [GatherDims.batchCoord_eq_zero _ _ _ List.not_mem_nil, GatherDims.offCoord_eq_zero _ _ _ (hcol a)]
  simp only [Nat.add_zero]
  unfold GatherDims.start
  match a with
  | ⟨0, _⟩ =>
    have hm : (⟨0, by decide⟩ : Fin 2) ∈ gather_S8192x8192_S1000000x2_S1000000_n_01_n_n_01_1_11.startIndexMap :=
      List.mem_cons_self
    rw [dif_pos hm]
    have hsi : gather_S8192x8192_S1000000x2_S1000000_n_01_n_n_01_1_11.siIdx (ix1 t)
        ⟨List.idxOf (⟨0, by decide⟩ : Fin 2) gather_S8192x8192_S1000000x2_S1000000_n_01_n_n_01_1_11.startIndexMap,
          List.idxOf_lt_length_iff.2 hm⟩ = ix2 t (0 : Fin 2) := by
      funext b; refine Fin.ext ?_
      match b with
      | ⟨0, _⟩ => rfl
      | ⟨1, _⟩ => rfl
    rw [hsi]
    rfl
  | ⟨1, _⟩ =>
    have hm : (⟨1, by decide⟩ : Fin 2) ∈ gather_S8192x8192_S1000000x2_S1000000_n_01_n_n_01_1_11.startIndexMap :=
      List.mem_cons_of_mem _ List.mem_cons_self
    rw [dif_pos hm]
    have hsi : gather_S8192x8192_S1000000x2_S1000000_n_01_n_n_01_1_11.siIdx (ix1 t)
        ⟨List.idxOf (⟨1, by decide⟩ : Fin 2) gather_S8192x8192_S1000000x2_S1000000_n_01_n_n_01_1_11.startIndexMap,
          List.idxOf_lt_length_iff.2 hm⟩ = ix2 t (1 : Fin 2) := by
      funext b; refine Fin.ext ?_
      match b with
      | ⟨0, _⟩ => rfl
      | ⟨1, _⟩ => rfl
    rw [hsi]
    rfl

section Table
variable (x : (⟨S8192x128, .f32⟩ : BufTy).Contents (Elt Ideal))

/-- The row sums of squares: entry `p` is the inner product of row `p` with itself (the float sum starts from `0`). -/
theorem sq_apply (p : Fin 8192) : val_main_v1 (F := Ideal) x (ix1 p) = Cert.Spec.dotp x p p := by
  rw [val_main_v1_apply, val_main_cst_apply, Ideal.ofBits_def, Ideal.ofBits_zero_f32, zero_add]
  unfold Cert.Spec.dotp
  refine Finset.sum_congr rfl fun k _ => ?_
  have e : idx_main_v1 (ix1 p) k = ix2 p k :=
    funext fun a => Fin.ext (by match a with | ⟨0, _⟩ => rfl | ⟨1, _⟩ => rfl)
  rw [val_main_v0_apply, e]
  rfl

/-- The product of the table with its transpose: entry `(p, q)` is the inner product of rows `p` and `q`. -/
theorem dot_apply (p q : Fin 8192) : val_main_v8 (F := Ideal) x (ix2 p q) = Cert.Spec.dotp x p q := by
  rw [val_main_v8_apply]
  unfold Cert.Spec.dotp
  refine Finset.sum_congr rfl fun k _ => ?_
  have el : lidx_main_v8 (ix2 p q) k = ix2 p k :=
    funext fun a => Fin.ext (by match a with | ⟨0, _⟩ => rfl | ⟨1, _⟩ => rfl)
  have er : idx_main_v7 (ridx_main_v8 (ix2 p q) k) = ix2 q k :=
    funext fun a => Fin.ext (by match a with | ⟨0, _⟩ => rfl | ⟨1, _⟩ => rfl)
  rw [val_main_v7_apply, el, er]

/-- The table of squared distances: entry `(p, q)` is `max (⟨p,p⟩ + ⟨q,q⟩ - 2⟨p,q⟩) 0`. -/
theorem table_apply (p q : Fin 8192) : val_main_v13 (F := Ideal) x (ix2 p q) = Cert.Spec.dist x p q := by
  have e4 : idx_main_v2 (idx_main_v4 (ix2 p q)) = ix1 p :=
    funext fun a => Fin.ext (by match a with | ⟨0, _⟩ => rfl)
  have e5 : idx_main_v3 (idx_main_v5 (ix2 p q)) = ix1 q :=
    funext fun a => Fin.ext (by match a with | ⟨0, _⟩ => rfl)
  rw [val_main_v13_apply, val_main_v11_apply, val_main_v6_apply, val_main_v10_apply,
    val_main_v4_apply, val_main_v2_apply, val_main_v5_apply, val_main_v3_apply,
    val_main_v9_apply, val_main_cst_0_apply, val_main_v12_apply, val_main_cst_1_apply,
    dot_apply, e4, e5, sq_apply, sq_apply, Ideal.ofBits_def, Ideal.ofBits_def, Ideal.ofBits_zero_f32]
  rfl

end Table

section Indices
variable (trip : (⟨S1000000x3, .i32⟩ : BufTy).Contents (Elt Ideal))

/-- The three index columns: entry `t` of column `c` is word `(t, c)` of the triples. -/
theorem col0_apply (t : Fin 1000000) : val_main_v15 (F := Ideal) trip (ix1 t) = trip (ix2 t (0 : Fin 3)) := by
  rw [val_main_v15_apply, val_main_v14_apply]
  refine congrArg trip (funext fun a => Fin.ext ?_)
  match a with
  | ⟨0, _⟩ => exact Nat.div_one _
  | ⟨1, _⟩ => rfl

theorem col1_apply (t : Fin 1000000) : val_main_v17 (F := Ideal) trip (ix1 t) = trip (ix2 t (1 : Fin 3)) := by
  rw [val_main_v17_apply, val_main_v16_apply]
  refine congrArg trip (funext fun a => Fin.ext ?_)
  match a with
  | ⟨0, _⟩ => exact Nat.div_one _
  | ⟨1, _⟩ => rfl

theorem col2_apply (t : Fin 1000000) : val_main_v19 (F := Ideal) trip (ix1 t) = trip (ix2 t (2 : Fin 3)) := by
  rw [val_main_v19_apply, val_main_v18_apply]
  refine congrArg trip (funext fun a => Fin.ext ?_)
  match a with
  | ⟨0, _⟩ => exact Nat.div_one _
  | ⟨1, _⟩ => rfl

/-- The negative-index wrap `select (w < 0) (w + 8192) w`, as the conditional the specification's lemma speaks of. -/
theorem wrap_eq (w : BitVec 32) :
    Scalar.select (IntOp.cmpi .slt w 0#32) (IntOp.addi w 8192#32) w = if w.slt 0#32 then w + 8192#32 else w := by
  unfold IntOp.cmpi Scalar.select IntOp.addi
  cases h : w.slt 0#32 <;> simp [h]

/-- A wrapped non-negative index word selects the row the word itself selects. -/
theorem rowOf_wrap (w : BitVec 32) (h : 0 ≤ w.toInt) :
    Cert.Spec.rowOf (Scalar.select (IntOp.cmpi .slt w 0#32) (IntOp.addi w 8192#32) w) = Cert.Spec.rowOf w := by
  rw [wrap_eq, Cert.Spec.rowOf_wrap_of_nonneg w h]

/-- The four wrapped columns the two gathers read. -/
theorem wrapA_apply (t : Fin 1000000) : val_main_v24 (F := Ideal) trip (ix1 t)
    = Scalar.select (IntOp.cmpi .slt (trip (ix2 t (0 : Fin 3))) 0#32) (IntOp.addi (trip (ix2 t (0 : Fin 3))) 8192#32)
        (trip (ix2 t (0 : Fin 3))) := by
  rw [val_main_v24_apply, val_main_v21_apply, val_main_v23_apply, val_main_v20_apply, val_main_c_apply,
    val_main_v22_apply, val_main_c_2_apply, col0_apply]

theorem wrapP_apply (t : Fin 1000000) : val_main_v29 (F := Ideal) trip (ix1 t)
    = Scalar.select (IntOp.cmpi .slt (trip (ix2 t (1 : Fin 3))) 0#32) (IntOp.addi (trip (ix2 t (1 : Fin 3))) 8192#32)
        (trip (ix2 t (1 : Fin 3))) := by
  rw [val_main_v29_apply, val_main_v26_apply, val_main_v28_apply, val_main_v25_apply, val_main_c_3_apply,
    val_main_v27_apply, val_main_c_4_apply, col1_apply]

theorem wrapA'_apply (t : Fin 1000000) : val_main_v38 (F := Ideal) trip (ix1 t)
    = Scalar.select (IntOp.cmpi .slt (trip (ix2 t (0 : Fin 3))) 0#32) (IntOp.addi (trip (ix2 t (0 : Fin 3))) 8192#32)
        (trip (ix2 t (0 : Fin 3))) := by
  rw [val_main_v38_apply, val_main_v35_apply, val_main_v37_apply, val_main_v34_apply, val_main_c_5_apply,
    val_main_v36_apply, val_main_c_6_apply, col0_apply]

theorem wrapN_apply (t : Fin 1000000) : val_main_v43 (F := Ideal) trip (ix1 t)
    = Scalar.select (IntOp.cmpi .slt (trip (ix2 t (2 : Fin 3))) 0#32) (IntOp.addi (trip (ix2 t (2 : Fin 3))) 8192#32)
        (trip (ix2 t (2 : Fin 3))) := by
  rw [val_main_v43_apply, val_main_v40_apply, val_main_v42_apply, val_main_v39_apply, val_main_c_7_apply,
    val_main_v41_apply, val_main_c_8_apply, col2_apply]

/-- The start indices of the first gather: row `t` is (wrapped anchor, wrapped positive). -/
theorem start1_left (t : Fin 1000000) :
    val_main_v32 (F := Ideal) trip (ix2 t (0 : Fin 2)) = val_main_v24 (F := Ideal) trip (ix1 t) := by
  unfold val_main_v32
  rw [concatenate_pair_apply_left (s₁ := S1000000x1) (s₂ := S1000000x1) (1 : Fin 2) _ _
    concatenates_S1000000x1_S1000000x1_S1000000x2_d1
    (ix2 t (0 : Fin 2)) rfl (ix2 t (0 : Fin 1)) (fun b => by match b with | ⟨0, _⟩ => rfl | ⟨1, _⟩ => rfl),
    val_main_v30_apply]
  exact congrArg _ (funext fun a => Fin.ext (by match a with | ⟨0, _⟩ => rfl))

theorem start1_right (t : Fin 1000000) :
    val_main_v32 (F := Ideal) trip (ix2 t (1 : Fin 2)) = val_main_v29 (F := Ideal) trip (ix1 t) := by
  unfold val_main_v32
  rw [concatenate_pair_apply_right (s₁ := S1000000x1) (s₂ := S1000000x1) (1 : Fin 2) _ _
    concatenates_S1000000x1_S1000000x1_S1000000x2_d1
    (ix2 t (1 : Fin 2)) rfl rfl (ix2 t (0 : Fin 1))
    (fun b hb => by match b with | ⟨0, _⟩ => rfl | ⟨1, _⟩ => exact absurd rfl hb) rfl,
    val_main_v31_apply]
  exact congrArg _ (funext fun a => Fin.ext (by match a with | ⟨0, _⟩ => rfl))

/-- The start indices of the second gather: row `t` is (wrapped anchor, wrapped negative). -/
theorem start2_left (t : Fin 1000000) :
    val_main_v46 (F := Ideal) trip (ix2 t (0 : Fin 2)) = val_main_v38 (F := Ideal) trip (ix1 t) := by
  unfold val_main_v46
  rw [concatenate_pair_apply_left (s₁ := S1000000x1) (s₂ := S1000000x1) (1 : Fin 2) _ _
    concatenates_S1000000x1_S1000000x1_S1000000x2_d1
    (ix2 t (0 : Fin 2)) rfl (ix2 t (0 : Fin 1)) (fun b => by match b with | ⟨0, _⟩ => rfl | ⟨1, _⟩ => rfl),
    val_main_v44_apply]
  exact congrArg _ (funext fun a => Fin.ext (by match a with | ⟨0, _⟩ => rfl))

theorem start2_right (t : Fin 1000000) :
    val_main_v46 (F := Ideal) trip (ix2 t (1 : Fin 2)) = val_main_v43 (F := Ideal) trip (ix1 t) := by
  unfold val_main_v46
  rw [concatenate_pair_apply_right (s₁ := S1000000x1) (s₂ := S1000000x1) (1 : Fin 2) _ _
    concatenates_S1000000x1_S1000000x1_S1000000x2_d1
    (ix2 t (1 : Fin 2)) rfl rfl (ix2 t (0 : Fin 1))
    (fun b hb => by match b with | ⟨0, _⟩ => rfl | ⟨1, _⟩ => exact absurd rfl hb) rfl,
    val_main_v45_apply]
  exact congrArg _ (funext fun a => Fin.ext (by match a with | ⟨0, _⟩ => rfl))

end Indices

section Value
variable (x : (⟨S8192x128, .f32⟩ : BufTy).Contents (Elt Ideal))
  (trip : (⟨S1000000x3, .i32⟩ : BufTy).Contents (Elt Ideal)) (hnn : ∀ i, 0 ≤ (trip i).toInt)
include hnn

/-- The first gather at triple `t`: the squared distance of the anchor's and the positive's rows. -/
theorem gather1_apply (t : Fin 1000000) : val_main_v33 (F := Ideal) x trip (ix1 t)
    = Cert.Spec.dist x (Cert.Spec.anchor trip t) (Cert.Spec.pos trip t) := by
  unfold val_main_v33
  rw [gather_pair_apply, start1_left, start1_right, wrapA_apply, wrapP_apply, rowOf_wrap _ (hnn _),
    rowOf_wrap _ (hnn _), table_apply]
  rfl

/-- The second gather at triple `t`: the squared distance of the anchor's and the negative's rows. -/
theorem gather2_apply (t : Fin 1000000) : val_main_v47 (F := Ideal) x trip (ix1 t)
    = Cert.Spec.dist x (Cert.Spec.anchor trip t) (Cert.Spec.neg trip t) := by
  unfold val_main_v47
  rw [gather_pair_apply, start2_left, start2_right, wrapA'_apply, wrapN_apply, rowOf_wrap _ (hnn _),
    rowOf_wrap _ (hnn _), table_apply]
  rfl

/-- Triple `t`'s term: an extended real never differs from itself, so the select keeps
    `max 0 d + log1p (exp (-|0 - d|))` with `d` the difference of the two gathered distances. -/
theorem term_apply (t : Fin 1000000) : val_main_v61 (F := Ideal) x trip (ix1 t) = Cert.Spec.per x trip t := by
  have hne : ∀ a : Ideal .f32, FloatOps.cmpf .une a a = 0#1 := fun a => by
    show Ideal.cmp .une a a = 0#1
    simp [Ideal.cmp]
  rw [val_main_v61_apply, val_main_v53_apply, hne, select_zero, val_main_v60_apply, val_main_v50_apply,
    val_main_v59_apply, val_main_v58_apply, val_main_v57_apply, val_main_v56_apply, val_main_v52_apply,
    val_main_v49_apply, val_main_v51_apply, val_main_cst_9_apply, val_main_v48_apply,
    gather1_apply x trip hnn, gather2_apply x trip hnn, Ideal.ofBits_def, Ideal.ofBits_zero_f32]
  rfl

/-- The sum over the triples, re-indexed by the triple's number. -/
theorem sum_apply : ∑ j : S1000000.Idx, val_main_v61 (F := Ideal) x trip j = ∑ t : Fin 1000000, Cert.Spec.per x trip t := by
  rw [← Equiv.sum_comp (idxEquiv1 (n := 1000000)).symm]
  exact Finset.sum_congr rfl fun t _ => term_apply x trip hnn t

end Value

/-- The reference's result is the loss: the sum over the triples (from the initial value `0`), divided by the
    real `1000000`, that is, times its reciprocal. -/
theorem result_eq (x : (⟨Cert.ReferenceIdeal.S8192x128, .f32⟩ : BufTy).Contents (Elt Ideal))
    (trip : (⟨Cert.ReferenceIdeal.S1000000x3, .i32⟩ : BufTy).Contents (Elt Ideal))
    (hnn : ∀ i, 0 ≤ (trip i).toInt) :
    Cert.ReferenceIdeal.Read.val_main_v64 (F := Ideal) x trip = fun _ => Cert.Spec.loss x trip := by
  funext j
  unfold val_main_v64
  rw [shapeCast_apply _ shapeCasts_S_S1 j ix0 (by
    rw [Shape.rowMajor_val_one]
    have h1 : (S_.rowMajor ix0).val < 1 := (S_.rowMajor ix0).isLt
    have h2 : (j 0).val < 1 := (j 0).isLt
    omega)]
  rw [val_main_v63_apply, val_main_v62_apply, val_main_cst_10_apply, val_main_cst_11_apply, Ideal.ofBits_def,
    Ideal.ofBits_def, Ideal.ofBits_zero_f32, zero_add, ofBits_million, sum_apply x trip hnn, Ideal.hostDivf_def,
    Ideal.div_coe (by norm_num)]
  rfl

end Cert.ReferenceIdeal.RefValue

end
-- ==== Proof.PreDecode.lean ====
/-
  The printed precondition, read back. The precondition is the conjunction of two reductions by `and` over all
  axes: one over the mask |x| < +inf, one over the mask  trip ≥ 0  (signed). When the conjunction is 1, the second
  reduction is 1, so every element of its mask is 1, and an element of that mask is the signed comparison of one
  index word with the zero word. Hence every index word is non-negative as a signed integer.
-/
import proofs.«413447_j32925219291441_3_alg».proof.Pre_finite_inputs
import proofs.«413447_j32925219291441_3_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic

/-- The scalar shape has one index: two indices of rank 0 agree on every axis, there being none. -/
instance subsingleton_scalar_idx : Subsingleton Cert.Pre_finite_inputs.S_.Idx :=
  ⟨fun _ _ => funext fun d => d.elim0⟩

/-- If the printed precondition is all ones, every index word is non-negative as a signed integer. -/
theorem nonneg_of_pre {F : FTy → Type} [FloatOps F]
    (x : FVec F Cert.Pre_finite_inputs.S8192x128 .f32) (trip : IVec Cert.Pre_finite_inputs.S1000000x3 32)
    (h : Cert.Pre_finite_inputs.fn (F := F) x trip = fun _ => 1#1) :
    ∀ i : Cert.Pre_finite_inputs.S1000000x3.Idx, 0 ≤ (trip i).toInt := by
  intro i
  -- the precondition at its one index
  have h0 := congrFun h ValueIdx.ix0
  dsimp only [Cert.Pre_finite_inputs.fn] at h0
  -- a conjunction of two bits that is 1 has both bits 1; keep the second, the reduction over  trip ≥ 0
  have h1 := (IntOp.andi_eq_one.1 h0).2
  -- a reduction by `and` over all axes that is 1 met a 1 at every element of its mask
  have h2 := Host.reduce_andi_all _ _ _ _ _ h1 i
  -- that element is the signed comparison of the index word with the broadcast zero word, which reads 0 everywhere
  have h3 : IntOp.cmpi .sge (trip i) 0#32 = 1#1 := h2
  -- the signed comparison  a ≥ b  being 1 says  b ≤ a  as signed integers, and the zero word is the integer 0
  have h4 := IntOp.cmpi_sge.1 h3
  simpa using h4

end Cert.PreDecode
-- ==== Proof.lean ====
/-
  A triplet loss over a feature table x : [8192, 128] and index triples : [1000000, 3].

  Both programs compute, for every triple (a, p, n) of table rows,
      softplus (dist a p - dist a n),   dist u v = max (⟨u,u⟩ + ⟨v,v⟩ - 2⟨u,v⟩) 0,
  and the mean of these terms. The kernel gathers the three rows of each triple and works row by row, summing
  blocks of 4000 terms into a running total that the last grid point multiplies by 1/1000000 (a named constant,
  read as that rational); the reference builds the whole 8192 × 8192 table of clamped distances, gathers two of
  its entries per triple and divides the total by 1000000. Over the extended reals the two agree term by term:
  the inner products are the same finite sums, sums regroup freely, an extended real never differs from itself
  (so the guard on  d ≠ d  picks the same branch on both sides), 0 - y = -y, and dividing by the real 1000000 is
  multiplying by its reciprocal. No finiteness is needed.

  The one place the programs part is a NEGATIVE index word: the kernel's gather clamps it to row 0, while the
  reference first adds the table's height to it. The claim is therefore stated, and proved, for index words that
  are non-negative as signed integers (above the table's height both gathers clamp alike, so no upper bound is
  used).

  Frames: the kernel's and its idealization's are the generated frame theorems; the reference's is its generated
  run with the result dropped. The one ledger entry is the named constant's statement.
-/
import proofs.«413447_j32925219291441_3_alg».proof.Defs
import proofs.«413447_j32925219291441_3_alg».proof.Proof.Gen.Kernel
import proofs.«413447_j32925219291441_3_alg».proof.Proof.Gen.Kernel.Skeleton
import proofs.«413447_j32925219291441_3_alg».proof.Proof.Gen.Kernel.Launch
import proofs.«413447_j32925219291441_3_alg».proof.Proof.Gen.Kernel.Points
import proofs.«413447_j32925219291441_3_alg».proof.Proof.Gen.Kernel.Frame
import proofs.«413447_j32925219291441_3_alg».proof.Proof.Gen.KernelIdeal
import proofs.«413447_j32925219291441_3_alg».proof.Proof.Gen.KernelIdeal.Skeleton
import proofs.«413447_j32925219291441_3_alg».proof.Proof.Gen.KernelIdeal.Launch
import proofs.«413447_j32925219291441_3_alg».proof.Proof.Gen.KernelIdeal.Points
import proofs.«413447_j32925219291441_3_alg».proof.Proof.Gen.KernelIdeal.Frame
import proofs.«413447_j32925219291441_3_alg».proof.Proof.Gen.ReferenceIdeal
import proofs.«413447_j32925219291441_3_alg».proof.Proof.Gen.ReferenceIdeal.Run
import proofs.«413447_j32925219291441_3_alg».proof.Proof.Gen.ReferenceIdeal.Read
import proofs.«413447_j32925219291441_3_alg».proof.Proof.Gen.Pre_finite_inputs
import proofs.«413447_j32925219291441_3_alg».proof.Proof.KValue
import proofs.«413447_j32925219291441_3_alg».proof.Proof.RefValue
import proofs.«413447_j32925219291441_3_alg».proof.Proof.PreDecode
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the name the value 1/1000000, and the printed constant is that value
    over the extended reals. -/
theorem preserves : Cert.preserves_Kernel_KernelIdeal :=
  IdealRules.named_const.statement Cert.KernelIdeal.κ "inv_1000000" .f32 0x358637BD#32 ((1 / 1000000 : ℝ) : EReal) rfl

/-- Both runs end at the loss of the (agreeing) arguments: the kernel's by its accumulation over the grid, the
    reference's stage by stage, its index wrap removed by the non-negativity the precondition states. -/
theorem algebraic : Cert.algebraic_KernelIdeal_ReferenceIdeal := by
  intro m ρ m' ρ' hpre hagree
  refine ⟨fun c => (fun _ => Cert.Spec.loss (Cert.KernelIdeal.KValue.tab m c) (Cert.KernelIdeal.KValue.trips m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2]
  exact Cert.ReferenceIdeal.RefValue.result_eq _ _ (Cert.PreDecode.nonneg_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
